-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S8192x2048 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Kernel.lean ====
abbrev S8192x2048 : Shape := ⟨2, ![8192, 2048]⟩
abbrev S8x128 : Shape := ⟨2, ![8, 128]⟩
abbrev S128x2048 : Shape := ⟨2, ![128, 2048]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8x128, .f32⟩
  | .hbm, ⟨5, _⟩ => ⟨S1x1, .f32⟩
  | .hbm, ⟨6, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S8x128_S8x128_0_0 : ∀ a, (![0, 0] : Fin 2 → Nat) a + S8x128.size a ≤ S8x128.size a
  h_S8x128 : 0 < S8x128.numel
  inb_S128x2048_S128x2048_0_0 : ∀ a, (![0, 0] : Fin 2 → Nat) a + S128x2048.size a ≤ S128x2048.size a
  h_S128x2048 : 0 < S128x2048.numel
  reduces_S128x2048_S128 : S128x2048.Reduces [1] S128
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  shapeCasts_S8x128_S8x128 : S8x128.ShapeCasts S8x128
  slices_S8x128_S1x1_0_0 : S8x128.Slices ![0, 0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S8192x2048.size a
  hwx0_2 : ∀ i : grid0.Coords, EltTy.bits .f32 = 32 ∨ (Rect.block (s := S8192x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S8192x2048.size a
  hwx0_3 : ∀ i : grid0.Coords, EltTy.bits .f32 = 32 ∨ (Rect.block (s := S8192x2048) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)

variable [Facts₀]

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S_ : Shape := ⟨0, ![]⟩
abbrev S8192 : Shape := ⟨1, ![8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.KlSpec.lean ====
/-
  The quantity both programs compute, over the extended reals.

  The four arguments are [8192, 2048] arrays: the means μq, μp and the log-variances σq, σp of two
  diagonal Gaussians per row. Row r's Kullback–Leibler term is

      kl r = ½ · ( Σⱼ (σq − σp) + Σⱼ exp (σp − σq) + Σⱼ (μq − μp)² · exp (−σq) − 2048 ),

  the three sums over the 2048 entries of the row, and the result is the sum of kl r over all rows.
  The two literals ½ and 2048 are kept as the words both programs print; nothing here evaluates them.

  One program adds the rows' terms in one sweep, the other in 64 blocks of 128 consecutive rows, block
  after block into a running total. Addition of extended reals is commutative and associative, so the
  two arrangements agree (`sum_by_blocks`), and a running total started at zero is the sum of the blocks
  met so far (`running_total_zero`, `running_total_succ`). No finiteness is used anywhere.
-/
import Idealize.ShloMosaic.PureOps.Ideal
import Idealize.ShloMosaic.PureOps.Ideal.Laws
import Idealize.ShloMosaic.Lib.ValueIdx

noncomputable section

open scoped BigOperators

namespace Cert.KlSum

open Idealize.ShloMosaic Idealize.ShloMosaic.ValueIdx

/-- The factor ½, as the word both programs print. -/
abbrev half : EReal := Ideal.ofBits .f32 0x3F000000#32
/-- The row length 2048 that is subtracted, as the word both programs print. -/
abbrev rowLen : EReal := Ideal.ofBits .f32 0x45000000#32

/-- One row's term, from the row's 2048 entries of each argument. -/
def rowKl (mq sq mp sp : Fin 2048 → EReal) : EReal :=
  half * ((∑ j, (sq j - sp j)) + (∑ j, Ideal.exp (sp j - sq j))
    + (∑ j, (mq j - mp j) * (mq j - mp j) * Ideal.exp (-(sq j))) - rowLen)

/-- Row `r` of an array of `n` rows of 2048 entries. -/
abbrev rowOf {n : Nat} (x : (⟨2, ![n, 2048]⟩ : Shape).Idx → EReal) (r : Fin n) : Fin 2048 → EReal :=
  fun j => x (ix2 r j)

/-- Row `r`'s term of four arrays of `n` rows. -/
def klOfRow {n : Nat} (mq sq mp sp : (⟨2, ![n, 2048]⟩ : Shape).Idx → EReal) (r : Fin n) : EReal :=
  rowKl (rowOf mq r) (rowOf sq r) (rowOf mp r) (rowOf sp r)

/-- The terms of all `n` rows added: for the whole arrays (`n = 8192`) the result, for a block of 128 rows
    that block's contribution. -/
def klSum {n : Nat} (mq sq mp sp : (⟨2, ![n, 2048]⟩ : Shape).Idx → EReal) : EReal :=
  ∑ r : Fin n, klOfRow mq sq mp sp r

/-- Row `p` of block `t`, as a row of the whole array: blocks are 128 consecutive rows. -/
def blockRow (t : Fin 64) (p : Fin 128) : Fin 8192 :=
  ⟨128 * t.val + p.val, by have := t.isLt; have := p.isLt; omega⟩

@[simp] theorem blockRow_val (t : Fin 64) (p : Fin 128) : (blockRow t p).val = 128 * t.val + p.val := rfl

/-- A sum over the 8192 rows is the sum over the 64 blocks of the sums over each block's 128 rows: the
    pairs (block, row in block) are the rows, counted once each. -/
theorem sum_by_blocks {M : Type*} [AddCommMonoid M] (f : Fin 8192 → M) :
    ∑ t : Fin 64, ∑ p : Fin 128, f (blockRow t p) = ∑ r : Fin 8192, f r := by
  rw [← Fintype.sum_prod_type' (fun t p => f (blockRow t p))]
  refine Fintype.sum_equiv (finProdFinEquiv (m := 64) (n := 128)) _ _ fun x => congrArg f (Fin.ext ?_)
  show 128 * x.1.val + x.2.val = x.2.val + 128 * x.1.val
  omega

/-- The word `+0.0` is the extended real zero, so adding to it changes nothing. -/
theorem zero_word_add (x : EReal) : Ideal.ofBits .f32 0x00000000#32 + x = x := by
  rw [Ideal.ofBits_zero_f32, zero_add]

/-- A block's contribution by its position in the grid; zero past the last block (never read). -/
def contribAt (part : Fin 64 → EReal) (n : ℕ) : EReal := if h : n < 64 then part ⟨n, h⟩ else 0

/-- The running total after the first block: zero plus that block's contribution. -/
theorem running_total_zero (part : Fin 64 → EReal) (h : 0 < 64) :
    Ideal.ofBits .f32 0x00000000#32 + part ⟨0, h⟩ = ∑ k ∈ Finset.range (0 + 1), contribAt part k := by
  rw [zero_word_add, Finset.sum_range_one, contribAt, dif_pos h]

/-- The running total after one more block. -/
theorem running_total_succ (part : Fin 64 → EReal) (n : ℕ) (h : n + 1 < 64) :
    (∑ k ∈ Finset.range (n + 1), contribAt part k) + part ⟨n + 1, h⟩
      = ∑ k ∈ Finset.range (n + 1 + 1), contribAt part k := by
  rw [Finset.sum_range_succ _ (n + 1), contribAt, dif_pos h]

/-- After the last block the running total is the sum of all 64 contributions. -/
theorem running_total_last (part : Fin 64 → EReal) :
    ∑ k ∈ Finset.range (63 + 1), contribAt part k = ∑ t : Fin 64, part t := by
  rw [← Fin.sum_univ_eq_sum_range (fun k => contribAt part k) 64]
  exact Finset.sum_congr rfl fun t _ => by rw [contribAt, dif_pos t.isLt]

end Cert.KlSum

end
-- ==== Proof.RefIsKlSum.lean ====
/-
  The reference program's result is the sum of the rows' Kullback–Leibler terms.

  The reference forms, for all 8192 rows at once, the three row sums (each from the initial value zero), adds them,
  subtracts 2048, halves, and adds the 8192 results from zero. Read at one row, the operations' generated
  index-by-index readings compose to that row's term (`row_term`): the host's exponential and its negation are the
  extended reals' `exp` and `-`, and a sum started at the zero word is the sum. The final reduction runs over the
  one-axis index set, which is the set of rows (`sum_rows`).
-/
import proofs.«127289_j17987323036509_1_alg».proof.Proof.Gen.ReferenceIdeal.Read
import proofs.«127289_j17987323036509_1_alg».proof.Proof.KlSpec

noncomputable section

open scoped BigOperators

namespace Cert.ReferenceIdeal.KlValue

open Cert.ReferenceIdeal Cert.ReferenceIdeal.Read Idealize.ShloMosaic Idealize.ShloMosaic.ValueIdx Cert.KlSum

/-- A one-axis index set is its coordinate's range, so a sum over it is the sum over the coordinate. -/
theorem sum_rows {M : Type*} [AddCommMonoid M] {n : Nat} (f : (⟨1, ![n]⟩ : Shape).Idx → M) :
    ∑ i, f i = ∑ r : Fin n, f (ix1 r) :=
  Fintype.sum_equiv
    { toFun := fun i => i 0, invFun := fun r => ix1 r, left_inv := fun i => (eq_ix1 i).symm, right_inv := fun _ => rfl }
    f (fun r => f (ix1 r)) fun i => congrArg f (eq_ix1 i)

/-- The entry each of the three row sums reads at row `r` and position `k` of the sum is `(r, k)`. -/
theorem entry_logdet (r : Fin 8192) (k : Fin 2048) : idx_main_v2 (ix1 r) k = ix2 r k :=
  funext fun a => Fin.ext (by match a with | ⟨0, _⟩ => rfl | ⟨1, _⟩ => rfl)
theorem entry_trace (r : Fin 8192) (k : Fin 2048) : idx_main_v5 (ix1 r) k = ix2 r k :=
  funext fun a => Fin.ext (by match a with | ⟨0, _⟩ => rfl | ⟨1, _⟩ => rfl)
theorem entry_maha (r : Fin 8192) (k : Fin 2048) : idx_main_v10 (ix1 r) k = ix2 r k :=
  funext fun a => Fin.ext (by match a with | ⟨0, _⟩ => rfl | ⟨1, _⟩ => rfl)

/-- What the reference holds for row `r` before its last reduction is that row's term. -/
theorem row_term (mq sq mp sp : (⟨S8192x2048, .f32⟩ : BufTy).Contents (Elt Ideal)) (r : Fin 8192) :
    val_main_v16 (F := Ideal) mq sq mp sp (ix1 r) = klOfRow mq sq mp sp r := by
  rw [val_main_v16_apply, val_main_v15_apply, val_main_cst_3_apply, val_main_v14_apply, val_main_v13_apply,
    val_main_cst_2_apply, val_main_v12_apply, val_main_v11_apply, val_main_v2_apply, val_main_v5_apply,
    val_main_v10_apply, val_main_cst_apply, val_main_cst_0_apply, val_main_cst_1_apply]
  simp only [entry_logdet, entry_trace, entry_maha, val_main_v1_apply, val_main_v4_apply, val_main_v3_apply,
    val_main_v9_apply, val_main_v6_apply, val_main_v0_apply, val_main_v8_apply, val_main_v7_apply,
    Ideal.ofBits_def, Ideal.addf_def, Ideal.subf_def, Ideal.mulf_def, Ideal.hostUnary_exp_def, Ideal.hostNegf_def,
    Ideal.negf_def, zero_word_add]
  rfl

/-- The reference's result, at its one index, is the sum of all rows' terms. -/
theorem result_is_klSum (mq sq mp sp : (⟨S8192x2048, .f32⟩ : BufTy).Contents (Elt Ideal)) (i : S_.Idx) :
    val_main_v17 (F := Ideal) mq sq mp sp i = klSum mq sq mp sp := by
  rw [val_main_v17_apply, val_main_cst_4_apply, Ideal.ofBits_def, zero_word_add, sum_rows]
  exact Finset.sum_congr rfl fun r _ => row_term mq sq mp sp r

end Cert.ReferenceIdeal.KlValue

end
-- ==== Proof.PointValue.lean ====
/-
  What one grid point leaves in the tile buffer, as a value.

  The body's run was found in two cases. At the first grid point the body first stores the zero tile, reads it back,
  and stores the accumulated value: the buffer ends at the stored value computed over the ZERO tile (`first_point`).
  At every later point the one store covers the buffer with the stored value computed over what the point before
  left there (`later_point`). In both the four argument tiles are read whole, so the value is the body's pure term of
  the four tiles themselves. For any float instance.
-/
import proofs.«127289_j17987323036509_1_alg».proof.Proof.Gen.KernelIdeal.Frame
import Idealize.ShloMosaic.Lib.Pipeline.Value
import Idealize.ShloMosaic.Lib.Tactic

noncomputable section

namespace Cert.KernelIdeal.KlValue

open Cert.KernelIdeal Cert.KernelIdeal.Gen Idealize.ShloMosaic Idealize.ShloMosaic.TcCoe Idealize.SL.Sem

variable {F : FTy → Type} [FloatOps F]

/-- Every access of the body starts at the origin of its buffer. -/
theorem origin : (![0, 0] : Fin 2 → Nat) = fun _ => 0 := funext fun a => by fin_cases a <;> rfl

/-- A later grid point: the buffer held `prev`; it ends at the stored value over `prev`. -/
theorem later_point (c : Dev nD) (i : grid0.Coords) (arg1 : Memref sig .tc .vmem S128x2048 .f32) (harg1 : arg1.IsWhole)
    (arg2 : Memref sig .tc .vmem S128x2048 .f32) (harg2 : arg2.IsWhole) (arg3 : Memref sig .tc .vmem S128x2048 .f32) (harg3 : arg3.IsWhole)
    (arg4 : Memref sig .tc .vmem S128x2048 .f32) (harg4 : arg4.IsWhole) (arg5 : Memref sig .tc .vmem S8x128 .f32) (harg5 : arg5.IsWhole) (hc0 : ¬cond0_0 i)
    (mq sq mp sp : Vec F S128x2048 .f32) (prev : Vec F S8x128 .f32) :
    out0_B_4 c i arg1 harg1 arg2 harg2 arg3 harg3 arg4 harg4 arg5 harg5 hc0 mq sq mp sp prev = k0_pay2 mq sq mp sp prev := by
  unfold out0_B_4
  rw [View.read_writes_eq_canon _ _ _ (cover0_B_4 c i arg1 harg1 arg2 harg2 arg3 harg3 arg4 harg4 arg5 harg5 hc0 mq sq mp sp prev)]
  unfold kernelRun0_B
  dsimp only
  sl_unfold_words
  rw [View.canon_unit_zero origin]
  simp only [View.readAt_eq_ld, harg1.read_unread, harg2.read_unread, harg3.read_unread, harg4.read_unread,
    harg5.read_unread, View.ld_unit_zero (S := S128x2048) origin, View.ld_unit_zero (S := S8x128) origin]

/-- The first grid point: whatever the buffer held, it ends at the stored value over the zero tile. -/
theorem first_point (c : Dev nD) (i : grid0.Coords) (arg1 : Memref sig .tc .vmem S128x2048 .f32) (harg1 : arg1.IsWhole)
    (arg2 : Memref sig .tc .vmem S128x2048 .f32) (harg2 : arg2.IsWhole) (arg3 : Memref sig .tc .vmem S128x2048 .f32) (harg3 : arg3.IsWhole)
    (arg4 : Memref sig .tc .vmem S128x2048 .f32) (harg4 : arg4.IsWhole) (arg5 : Memref sig .tc .vmem S8x128 .f32) (harg5 : arg5.IsWhole) (hc0 : cond0_0 i)
    (mq sq mp sp : Vec F S128x2048 .f32) :
    out0_A_4 c i arg1 harg1 arg2 harg2 arg3 harg3 arg4 harg4 arg5 harg5 hc0 mq sq mp sp = k0_pay2 mq sq mp sp (k0_pay1 (F := F)) := by
  unfold out0_A_4
  rw [View.read_writes_eq_canon _ _ _ (cover0_A_4 c i arg1 harg1 arg2 harg2 arg3 harg3 arg4 harg4 arg5 harg5 hc0 mq sq mp sp)]
  unfold kernelRun0_A
  dsimp only
  sl_unfold_words
  rw [View.canon_cons_unit_zero (S := S8x128) origin, View.readCov_unit_zero (S := S8x128) _ origin]
  simp only [View.readAt_eq_ld, harg1.read_unread, harg2.read_unread, harg3.read_unread, harg4.read_unread,
    View.ld_unit_zero (S := S128x2048) origin, View.ld_unit_zero (S := S8x128) origin]

end Cert.KernelIdeal.KlValue

end
-- ==== Proof.TileValue.lean ====
/-
  The kernel body's arithmetic, read over the extended reals.

  At one grid point the body holds a tile of 128 rows of each argument. Its one stored value is the tile buffer's
  previous contents plus, at every entry, ONE number: the sum over the tile's 128 rows of the rows' terms. The body's
  pure term is cut here into its three mathematical steps, for any float instance —

    `rowTerms`   the vector of the 128 rows' terms (three lane sums per row, added, less 2048, halved);
    `tileTotal`  that vector's entries added into one scalar (viewed as one row of 128, summed along it, read out);
    the stored value: previous contents plus the scalar at every entry (`stored_eq`, by unfolding alone) —

  and each step is then read at the ideal instance: a lane sum into the zero word is the sum of the row's entries,
  `0 - x` is `-x`, so a row's entry of `rowTerms` is that row's Kullback–Leibler term (`rowTerms_apply`), the tile's
  scalar is the sum of its rows' terms (`tileTotal_eq`), and the stored value at any entry is the previous contents
  there plus the tile's contribution (`stored_apply`).
-/
import proofs.«127289_j17987323036509_1_alg».proof.Proof.Gen.KernelIdeal.Skeleton
import proofs.«127289_j17987323036509_1_alg».proof.Proof.KlSpec
import Idealize.ShloMosaic.Lib.ValueLayout
import Idealize.ShloMosaic.Lib.Pipeline.Value

noncomputable section

open scoped BigOperators

namespace Cert.KernelIdeal.KlValue

open Cert.KernelIdeal Cert.KernelIdeal.Gen Idealize.ShloMosaic Idealize.ShloMosaic.ValueIdx Cert.KlSum

section AnyInstance
variable {F : FTy → Type} [FloatOps F]

/-- The 128 rows' terms of a tile, as the body computes them. -/
def rowTerms (mq sq mp sp : Vec F S128x2048 .f32) : FVec F S128 .f32 :=
  mulf (broadcast S128 (Scalar.ofBits .f32 0x3F000000#32))
    (subf
      (addf
        (addf (multiReduction .add [1] S128 (subf sq sp) 0x00000000#32 reduces_S128x2048_S128 (.inl rfl) rfl)
          (multiReduction .add [1] S128 (exp (subf sp sq)) 0x00000000#32 reduces_S128x2048_S128 (.inl rfl) rfl))
        (multiReduction .add [1] S128
          (mulf (mulf (subf mq mp) (subf mq mp)) (exp (subf (broadcast S128x2048 (Scalar.ofBits .f32 0x00000000#32)) sq)))
          0x00000000#32 reduces_S128x2048_S128 (.inl rfl) rfl))
      (broadcast S128 (Scalar.ofBits .f32 0x45000000#32)))

/-- A 128-vector's entries added into one scalar, as the body does it. -/
def tileTotal (v : FVec F S128 .f32) : F .f32 :=
  extractAt ![0, 0]
    (shapeCast S1x1
      (multiReduction .add [1] S1 (shapeCast S1x128 v shapeCasts_S128_S1x128) 0x00000000#32 reduces_S1x128_S1 (.inl rfl) rfl)
      shapeCasts_S1_S1x1)
    inpos_S1x1_p0_0

/-- The body's stored value is the previous contents plus the tile's scalar at every entry. -/
theorem stored_eq (mq sq mp sp : Vec F S128x2048 .f32) (prev : Vec F S8x128 .f32) :
    k0_pay2 mq sq mp sp prev
      = addf (shapeCast S8x128 prev shapeCasts_S8x128_S8x128) (broadcast S8x128 (tileTotal (rowTerms mq sq mp sp))) := rfl

end AnyInstance

/-! ## At the ideal instance -/

/-- The exponential of a vector, entry by entry. -/
theorem exp_apply {s : Shape} (a : FVec Ideal s .f32) (i : s.Idx) : exp a i = Ideal.exp (a i) := rfl

/-- A lane sum of a 128-row tile into the zero word, at row `p`: the sum of the row's 2048 entries. -/
theorem laneSum_apply (src : FVec Ideal S128x2048 .f32) (p : Fin 128) :
    multiReduction .add [1] S128 src 0x00000000#32 reduces_S128x2048_S128 (.inl rfl) rfl (ix1 p)
      = ∑ j : Fin 2048, src (ix2 p j) :=
  (Ideal.multiReduction_add_single src 0x00000000#32 reduces_S128x2048_S128 (.inl rfl) rfl (ix1 p)).trans
    (Finset.sum_congr rfl fun j _ => congrArg src
      (funext fun a => Fin.ext (by match a with | ⟨0, _⟩ => rfl | ⟨1, _⟩ => rfl)))

/-- Row `p`'s entry of the tile's row terms is that row's Kullback–Leibler term. -/
theorem rowTerms_apply (mq sq mp sp : Vec Ideal S128x2048 .f32) (p : Fin 128) :
    rowTerms (F := Ideal) mq sq mp sp (ix1 p) = klOfRow mq sq mp sp p := by
  unfold rowTerms
  rw [mulf_apply, subf_apply, addf_apply, addf_apply, laneSum_apply, laneSum_apply, laneSum_apply]
  simp only [broadcast_apply, mulf_apply, subf_apply, exp_apply]
  show Ideal.ofBits .f32 0x3F000000#32 * (_ + _ + (∑ j : Fin 2048, _ * Ideal.exp (Ideal.ofBits .f32 0x00000000#32 - _)) - Ideal.ofBits .f32 0x45000000#32) = _
  simp only [Ideal.ofBits_zero_f32, zero_sub]
  rfl

/-- The tile's scalar is the sum of the vector's 128 entries. -/
theorem tileTotal_eq (v : FVec Ideal S128 .f32) : tileTotal (F := Ideal) v = ∑ p : Fin 128, v (ix1 p) := by
  unfold tileTotal extractAt
  refine (shapeCast_apply _ shapeCasts_S1_S1x1 _ (ix1 (0 : Fin 1)) ?_).trans ?_
  · rw [Shape.rowMajor_val_two, Shape.rowMajor_val_one]
    rfl
  · refine (Ideal.multiReduction_add_single _ 0x00000000#32 reduces_S1x128_S1 (.inl rfl) rfl (ix1 (0 : Fin 1))).trans ?_
    refine Finset.sum_congr rfl fun p _ => ?_
    refine Eq.trans (congrArg _ (?_ : _ = ix2 (0 : Fin 1) p)) (shapeCast_a_1a_apply v shapeCasts_S128_S1x128 0 p)
    exact funext fun a => Fin.ext (by match a with | ⟨0, _⟩ => rfl | ⟨1, _⟩ => rfl)

/-- The stored value at any entry of the tile buffer: what was there plus the tile's contribution, the sum of its 128
    rows' terms. -/
theorem stored_apply (mq sq mp sp : Vec Ideal S128x2048 .f32) (prev : Vec Ideal S8x128 .f32) (i : S8x128.Idx) :
    k0_pay2 (F := Ideal) mq sq mp sp prev i = prev i + klSum mq sq mp sp := by
  rw [stored_eq, addf_apply, shapeCast_self, broadcast_apply, tileTotal_eq]
  exact congrArg (prev i + ·) (Finset.sum_congr rfl fun p _ => rowTerms_apply mq sq mp sp p)

end Cert.KernelIdeal.KlValue

end
-- ==== Proof.Tiles.lean ====
/-
  The tiles the body sees are blocks of consecutive rows of the arguments.

  At grid point `t` the pipeline hands the body, for each of the four arguments, the tile of rows
  `128·t … 128·t + 127`, all 2048 columns: entry `(p, j)` of the tile is entry `(128·t + p, j)` of the array
  (`tile_entry`: the window's block index is `(t, 0)` at every point, and a block's entry sits at block index times block
  size plus the entry's position in the block). So the sum of the tile's 128 row terms is the sum of the whole
  arrays' row terms over block `t`'s rows (`contribution_eq`).
-/
import proofs.«127289_j17987323036509_1_alg».proof.Proof.Gen.KernelIdeal.Frame
import proofs.«127289_j17987323036509_1_alg».proof.Proof.KlSpec
import Idealize.ShloMosaic.Lib.Pipeline.Value

noncomputable section

open scoped BigOperators

namespace Cert.KernelIdeal.KlValue

open Cert.KernelIdeal Cert.KernelIdeal.Gen Idealize.ShloMosaic Idealize.ShloMosaic.TcCoe Idealize.SL.Sem
open Idealize.ShloMosaic.ValueIdx Cert.KlSum

variable {F : FTy → Type} [FloatOps F]
variable (m : (ℓ : Loc nD τ sig) → Buf (Elt F) ℓ)

/-- The grid has 64 points. -/
theorem points : cfg0.N = 64 := N_0

/-- The four arguments' tiles at grid point `t`, and the four whole arrays, at their literal types. -/
abbrev mqTile (c : Dev nD) (t : Fin cfg0.N) : Vec F S128x2048 .f32 := iblk m c 0 t
abbrev sqTile (c : Dev nD) (t : Fin cfg0.N) : Vec F S128x2048 .f32 := iblk m c 1 t
abbrev mpTile (c : Dev nD) (t : Fin cfg0.N) : Vec F S128x2048 .f32 := iblk m c 2 t
abbrev spTile (c : Dev nD) (t : Fin cfg0.N) : Vec F S128x2048 .f32 := iblk m c 3 t
abbrev mqArr (c : Dev nD) : Vec F S8192x2048 .f32 := V m c main_arg0
abbrev sqArr (c : Dev nD) : Vec F S8192x2048 .f32 := V m c main_arg1
abbrev mpArr (c : Dev nD) : Vec F S8192x2048 .f32 := V m c main_arg2
abbrev spArr (c : Dev nD) : Vec F S8192x2048 .f32 := V m c main_arg3

/-- Each argument's window sits at block `(t, 0)` at grid point `t`: decided over the 64 points. -/
theorem block_index : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0))

/-- Grid point `t` as a block number. -/
abbrev blockOf (t : Fin cfg0.N) : Fin 64 := Fin.cast points t

/-- Entry `(p, j)` of each tile at point `t` is entry `(128·t + p, j)` of its array. -/
theorem mqTile_entry (c : Dev nD) (t : Fin cfg0.N) (p : Fin 128) (j : Fin 2048) :
    mqTile m c t (ix2 p j) = mqArr m c (ix2 (blockRow (blockOf t) p) j) := by
  show iblk m c 0 t (ix2 p j) = V m c main_arg0 _
  unfold iblk
  rw [View.read_apply]
  show V m c main_arg0 _ = V m c main_arg0 _
  refine congrArg (V m c main_arg0) (funext fun a => Fin.ext ?_)
  match a with
  | ⟨0, _⟩ => show win0_0.index t 0 * 128 + 1 * p.val = 128 * t.val + p.val; rw [(block_index t).1.1]; omega
  | ⟨1, _⟩ => show win0_0.index t 1 * 2048 + 1 * j.val = j.val; rw [(block_index t).1.2]; omega

theorem sqTile_entry (c : Dev nD) (t : Fin cfg0.N) (p : Fin 128) (j : Fin 2048) :
    sqTile m c t (ix2 p j) = sqArr m c (ix2 (blockRow (blockOf t) p) j) := by
  show iblk m c 1 t (ix2 p j) = V m c main_arg1 _
  unfold iblk
  rw [View.read_apply]
  show V m c main_arg1 _ = V m c main_arg1 _
  refine congrArg (V m c main_arg1) (funext fun a => Fin.ext ?_)
  match a with
  | ⟨0, _⟩ => show win0_1.index t 0 * 128 + 1 * p.val = 128 * t.val + p.val; rw [(block_index t).2.1.1]; omega
  | ⟨1, _⟩ => show win0_1.index t 1 * 2048 + 1 * j.val = j.val; rw [(block_index t).2.1.2]; omega

theorem mpTile_entry (c : Dev nD) (t : Fin cfg0.N) (p : Fin 128) (j : Fin 2048) :
    mpTile m c t (ix2 p j) = mpArr m c (ix2 (blockRow (blockOf t) p) j) := by
  show iblk m c 2 t (ix2 p j) = V m c main_arg2 _
  unfold iblk
  rw [View.read_apply]
  show V m c main_arg2 _ = V m c main_arg2 _
  refine congrArg (V m c main_arg2) (funext fun a => Fin.ext ?_)
  match a with
  | ⟨0, _⟩ => show win0_2.index t 0 * 128 + 1 * p.val = 128 * t.val + p.val; rw [(block_index t).2.2.1.1]; omega
  | ⟨1, _⟩ => show win0_2.index t 1 * 2048 + 1 * j.val = j.val; rw [(block_index t).2.2.1.2]; omega

theorem spTile_entry (c : Dev nD) (t : Fin cfg0.N) (p : Fin 128) (j : Fin 2048) :
    spTile m c t (ix2 p j) = spArr m c (ix2 (blockRow (blockOf t) p) j) := by
  show iblk m c 3 t (ix2 p j) = V m c main_arg3 _
  unfold iblk
  rw [View.read_apply]
  show V m c main_arg3 _ = V m c main_arg3 _
  refine congrArg (V m c main_arg3) (funext fun a => Fin.ext ?_)
  match a with
  | ⟨0, _⟩ => show win0_3.index t 0 * 128 + 1 * p.val = 128 * t.val + p.val; rw [(block_index t).2.2.2.1]; omega
  | ⟨1, _⟩ => show win0_3.index t 1 * 2048 + 1 * j.val = j.val; rw [(block_index t).2.2.2.2]; omega

end Cert.KernelIdeal.KlValue

/-! ## A block's contribution, over the extended reals -/

namespace Cert.KernelIdeal.KlValue

open Cert.KernelIdeal Cert.KernelIdeal.Gen Idealize.ShloMosaic Idealize.ShloMosaic.TcCoe Idealize.SL.Sem
open Idealize.ShloMosaic.ValueIdx Cert.KlSum

variable (m : (ℓ : Loc nD τ sig) → Buf (Elt Ideal) ℓ)

/-- Block `t`'s contribution: the sum of the row terms of the tiles the body sees at grid point `t`. -/
def contribution (c : Dev nD) (t : Fin 64) : EReal :=
  klSum (mqTile m c (Fin.cast points.symm t)) (sqTile m c (Fin.cast points.symm t))
    (mpTile m c (Fin.cast points.symm t)) (spTile m c (Fin.cast points.symm t))

/-- It is the sum of the whole arrays' row terms over the block's 128 rows. -/
theorem contribution_eq (c : Dev nD) (t : Fin 64) :
    contribution m c t
      = ∑ p : Fin 128, klOfRow (mqArr m c) (sqArr m c) (mpArr m c) (spArr m c) (blockRow t p) := by
  unfold contribution klSum
  refine Finset.sum_congr rfl fun p _ => ?_
  unfold klOfRow rowKl
  simp only [rowOf, mqTile_entry, sqTile_entry, mpTile_entry, spTile_entry]
  rfl

/-- All 64 contributions together are the sum of all rows' terms of the whole arrays. -/
theorem contributions_total (c : Dev nD) :
    ∑ t : Fin 64, contribution m c t = klSum (mqArr m c) (sqArr m c) (mpArr m c) (spArr m c) := by
  simp only [contribution_eq]
  exact sum_by_blocks fun r => klOfRow (mqArr m c) (sqArr m c) (mpArr m c) (spArr m c) r

end Cert.KernelIdeal.KlValue

end
-- ==== Proof.RunningTotal.lean ====
/-
  The tile buffer accumulates the blocks' contributions.

  After grid point `n` every entry of the [8, 128] tile buffer holds the sum of the contributions of the blocks
  `0 … n` (`buffer_after`), by induction on the point. The first point resets the buffer to the zero tile and adds
  block 0's contribution: zero plus it. A later point adds its block's contribution to what the point before left.
  Each step is the body's stored value read at an entry — what was there plus the tile's contribution.
-/
import proofs.«127289_j17987323036509_1_alg».proof.Proof.PointValue
import proofs.«127289_j17987323036509_1_alg».proof.Proof.TileValue
import proofs.«127289_j17987323036509_1_alg».proof.Proof.Tiles

noncomputable section

open scoped BigOperators

namespace Cert.KernelIdeal.KlValue

open Cert.KernelIdeal Cert.KernelIdeal.Gen Idealize.ShloMosaic Idealize.ShloMosaic.TcCoe Idealize.SL.Sem
open Idealize.ShloMosaic.ValueIdx Cert.KlSum

variable (m : (ℓ : Loc nD τ sig) → Buf (Elt Ideal) ℓ)

/-- The zero tile the first point stores holds the zero word at every entry. -/
theorem zero_tile_apply (i : S8x128.Idx) : k0_pay1 (F := Ideal) i = Ideal.ofBits .f32 0x00000000#32 := rfl

/-- After grid point `n` every entry of the tile buffer is the sum of the contributions of blocks `0 … n`. -/
theorem buffer_after (c : Dev nD) : ∀ (n : ℕ) (h : n < cfg0.N) (i : S8x128.Idx),
    outsAt0 m c n h i = ∑ k ∈ Finset.range (n + 1), contribAt (contribution m c) k
  | 0, h, i => by
    refine (congrFun (outsAt0_A m c ⟨0, h⟩ rfl) i).trans ?_
    refine (congrFun (first_point (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩)
      ((hcond0_0 ⟨0, h⟩).mpr rfl) (mqTile m c ⟨0, h⟩) (sqTile m c ⟨0, h⟩) (mpTile m c ⟨0, h⟩) (spTile m c ⟨0, h⟩)) i).trans ?_
    refine (stored_apply (mqTile m c ⟨0, h⟩) (sqTile m c ⟨0, h⟩) (mpTile m c ⟨0, h⟩) (spTile m c ⟨0, h⟩)
      (k0_pay1 (F := Ideal)) i).trans ?_
    rw [zero_tile_apply]
    exact running_total_zero (contribution m c) (by decide)
  | n + 1, h, i => by
    have hN : cfg0.N = 64 := points
    have h64 : n + 1 < 64 := lt_of_lt_of_eq h hN
    have hB : ¬(⟨n + 1, h⟩ : Fin cfg0.N).val % 64 = 0 := by dsimp only; omega
    refine (congrFun (outsAt0_B m c ⟨n + 1, h⟩ hB) i).trans ?_
    refine (congrFun (later_point (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hc => hB ((hcond0_0 ⟨n + 1, h⟩).mp hc)) (mqTile m c ⟨n + 1, h⟩) (sqTile m c ⟨n + 1, h⟩) (mpTile m c ⟨n + 1, h⟩)
      (spTile m c ⟨n + 1, h⟩) (outsAt0 m c n (Nat.lt_of_succ_lt h))) i).trans ?_
    refine (stored_apply (mqTile m c ⟨n + 1, h⟩) (sqTile m c ⟨n + 1, h⟩) (mpTile m c ⟨n + 1, h⟩) (spTile m c ⟨n + 1, h⟩)
      (outsAt0 m c n (Nat.lt_of_succ_lt h)) i).trans ?_
    rw [buffer_after c n (Nat.lt_of_succ_lt h) i]
    exact running_total_succ (contribution m c) n h64

/-- After the last point every entry is the sum of all rows' terms of the whole arrays. -/
theorem buffer_final (c : Dev nD) (h : 63 < cfg0.N) (i : S8x128.Idx) :
    outsAt0 m c 63 h i = klSum (mqArr m c) (sqArr m c) (mpArr m c) (spArr m c) :=
  (buffer_after m c 63 h i).trans ((running_total_last (contribution m c)).trans (contributions_total m c))

end Cert.KernelIdeal.KlValue

end
-- ==== Proof.ResultValue.lean ====
/-
  The kernel program's result is the sum of the rows' Kullback–Leibler terms.

  The tile buffer is written back to the [8, 128] result array once, after the last grid point, and its one block
  is the whole array: so the array ends holding, at every entry, what the buffer held after point 63 — the sum of all
  rows' terms (`result_array`). The two host lines after the region take the array's entry `[0, 0]` and view it as a
  scalar: of an array that is the same number everywhere, that number (`scalar_result`). The region's run, read
  through these, names the program's result and keeps the four arguments (`run`).
-/
import proofs.«127289_j17987323036509_1_alg».proof.Proof.RunningTotal
import Idealize.ShloMosaic.Lib.Pipeline.Value
import Idealize.ShloMosaic.Lib.StableHlo.Run
import Idealize.ShloMosaic.Lib.Tactic

noncomputable section

open scoped BigOperators

namespace Cert.KernelIdeal.KlValue

open Cert.KernelIdeal Cert.KernelIdeal.Gen Idealize.ShloMosaic Idealize.ShloMosaic.TcCoe Idealize.SL.Sem
open Idealize.ShloMosaic.Pipeline (Dat)
open Idealize.ShloMosaic.ValueIdx Cert.KlSum

variable (m : (ℓ : Loc nD τ sig) → Buf (Elt Ideal) ℓ) (ρ : Dev nD → PrngReg)

/-- The sum of all rows' terms of the four argument arrays as core `c` holds them at launch. -/
def total (c : Dev nD) : EReal :=
  klSum (m ((c.tc : Thread nD τ).loc main_arg0)) (m ((c.tc : Thread nD τ).loc main_arg1))
    (m ((c.tc : Thread nD τ).loc main_arg2)) (m ((c.tc : Thread nD τ).loc main_arg3))

/-- The result array with the total at every entry. -/
abbrev totalEverywhere (c : Dev nD) : Buf (Elt Ideal) ((c.tc : Thread nD τ).loc main_v0) := fun _ => total m c

/-- The last grid point, the only one after which the tile buffer is written back. -/
abbrev lastPoint : Fin cfg0.N := ⟨63, lt_of_lt_of_eq (by decide) points.symm⟩

/-- The one write-back writes the total at every entry of its block. -/
theorem writeback_eq (c : Dev nD) (t : Fin cfg0.N) (hf : (cfg0.win 4).flush t = true) :
    (dats m 0 c).flushed 4 t = ((cfg0.win 4).blk t).view.read (Elt Ideal) (totalEverywhere m c) := by
  have hN : cfg0.N = 64 := points
  have h63 : t.val = 63 := by have := (flush0_4 t).mp hf; have := t.isLt; omega
  obtain ⟨n, hn⟩ := t
  dsimp only at h63
  subst h63
  funext j
  exact buffer_final m c hn _

/-- The result window's one block starts at the array's origin and has the array's extents. -/
theorem result_block :
    win0_4.index lastPoint 0 * win0_4.size 0 = 0 ∧ win0_4.xsize (grid0.coords lastPoint) 0 = 8
    ∧ win0_4.index lastPoint 1 * win0_4.size 1 = 0 ∧ win0_4.xsize (grid0.coords lastPoint) 1 = 128 := by
  decide +kernel

/-- So that block covers every entry of the result array. -/
theorem covered (c : Dev nD) (i : ((cfg0.win 4).arr.view.loc (c.tc : Thread nD τ)).2.ty.Idx) :
    ∃ t : Fin cfg0.N, (cfg0.win 4).flush t = true ∧ i ∈ ((cfg0.win 4).blk t).view.set := by
  refine ⟨lastPoint, (flush0_4 lastPoint).mpr rfl, ?_⟩
  show i ∈ ((View.whole main_v0).slice (win0_4.rect lastPoint)).set
  rw [View.set_slice_whole, Rect.mem_set_unit]
  intro a
  have h0 : (i 0 : Nat) < 8 := (i 0).isLt
  have h1 : (i 1 : Nat) < 128 := (i 1).isLt
  match a with
  | ⟨0, _⟩ =>
    show win0_4.index lastPoint 0 * win0_4.size 0 ≤ (i 0 : Nat)
      ∧ (i 0 : Nat) < win0_4.index lastPoint 0 * win0_4.size 0 + win0_4.xsize (grid0.coords lastPoint) 0
    rw [result_block.1, result_block.2.1]; omega
  | ⟨1, _⟩ =>
    show win0_4.index lastPoint 1 * win0_4.size 1 ≤ (i 1 : Nat)
      ∧ (i 1 : Nat) < win0_4.index lastPoint 1 * win0_4.size 1 + win0_4.xsize (grid0.coords lastPoint) 1
    rw [result_block.2.2.1, result_block.2.2.2]; omega

/-- The result array ends holding the total at every entry. -/
theorem result_array (c : Dev nD) : (dats m 0 c).arrAt 4 cfg0.N = totalEverywhere m c :=
  (dats m 0 c).arrAt_eq_of_cover 4 (totalEverywhere m c) (writeback_eq m c) (covered c)

/-- The program's scalar result — entry `[0, 0]` of the result array, viewed as a scalar — is the total. -/
theorem scalar_result (c : Dev nD) :
    Pipeline.afterTail₀ cfgs (dats m) 0 (V0 m) [hostOps1] c main_v2 = fun _ => total m c := by
  have harr : Pipeline.withArrays (cfgs 0).spec c (V0 m c) (fun w => (dats m 0 c).arrAt w (cfgs 0).N)
      (Proc.devRef .tc main_v0) = totalEverywhere m c :=
    (Pipeline.withArrays_arr spec0 launch0.win.arr_inj c _ _ 4).trans (result_array m c)
  unfold Pipeline.afterTail₀
  show StableHlo.after hostOps1 _ (Proc.devRef .tc main_v2) = _
  after_results
  rw [harr]
  rfl

/-- The run, read: the scalar result at the total of the launch contents, the four arguments unchanged. -/
theorem run : θ_run defs (onTc (τ := τ) (main (F := Ideal))) ⟨m, fun _ => 0, ρ⟩ fun r => ∀ c : Dev nD,
      r.2.mem ((c.tc : Thread nD τ).loc main_v2) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 rfl (by decide))).trans (scalar_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KlValue

end
-- ==== Proof.lean ====
/-
  The Kullback–Leibler loss of two diagonal Gaussians per row, summed over 8192 rows: the kernel equals its reference
  over the extended reals.

  For [8192, 2048] arrays μq, σq, μp, σp (σ the log-variances), row r contributes

      kl r = ½ · ( Σⱼ (σq − σp) + Σⱼ exp (σp − σq) + Σⱼ (μq − μp)² · exp (−σq) − 2048 )

  and both programs return Σ_r kl r. The reference forms all rows' terms at once and adds them from zero. The kernel
  walks 64 blocks of 128 rows; at each it adds the block's 128 terms into one number and accumulates that number into
  every entry of an [8, 128] tile, reset to zero at the first block, written back once after the last; the result is
  the tile's entry [0, 0]. After block n the tile holds the sum of the contributions of blocks 0 … n, so at the end
  the sum over blocks of the sums over each block's rows — which is the sum over all rows, addition of extended reals
  being commutative and associative. The kernel writes −σq as 0 − σq and starts its lane sums at the zero word; the
  reference negates and starts its sums at a zero constant: the same extended reals. No finiteness of the inputs is
  used: the precondition is not opened.

  The three frames: the two kernel programs' runs terminate without fault and keep their arguments (their generated
  frame runs); the reference's is its generated run with the result dropped. The idealization rewrote nothing, so
  `preserves` holds trivially.
-/
import proofs.«127289_j17987323036509_1_alg».proof.Defs
import proofs.«127289_j17987323036509_1_alg».proof.Proof.Gen.Kernel.Frame
import proofs.«127289_j17987323036509_1_alg».proof.Proof.Gen.KernelIdeal.Frame
import proofs.«127289_j17987323036509_1_alg».proof.Proof.Gen.ReferenceIdeal.Run
import proofs.«127289_j17987323036509_1_alg».proof.Proof.Gen.Pre_finite_inputs
import proofs.«127289_j17987323036509_1_alg».proof.Proof.RefIsKlSum
import proofs.«127289_j17987323036509_1_alg».proof.Proof.ResultValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the sum of all rows' terms of the (agreeing) arguments. -/
theorem algebraic : Cert.algebraic_KernelIdeal_ReferenceIdeal := by
  intro m ρ m' ρ' _ hagree
  refine ⟨fun c _ => Cert.KernelIdeal.KlValue.total m c, Cert.KernelIdeal.KlValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v17_eq]
  funext i
  exact Cert.ReferenceIdeal.KlValue.result_is_klSum _ _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
